-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S10000x64 : Shape := ⟨2, ![10000, 64]⟩
abbrev S1x64 : Shape := ⟨2, ![1, 64]⟩
abbrev S1600000x64 : Shape := ⟨2, ![1600000, 64]⟩

abbrev nBuf : Space → Nat
  | .hbm => 80
  | .vmem => 12
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .i1⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000, .f32⟩
  | .hbm, ⟨45, _⟩ => ⟨S1600000, .f32⟩
  | .hbm, ⟨46, _⟩ => ⟨S100000x64, .f32⟩
  | .hbm, ⟨47, _⟩ => ⟨S1600000x1, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x64, .f32⟩
  | .hbm, ⟨57, _⟩ => ⟨S1600000x64, .f32⟩
  | .hbm, ⟨58, _⟩ => ⟨S1600000x64, .f32⟩
  | .hbm, ⟨59, _⟩ => ⟨S_, .f32⟩
  | .hbm, ⟨60, _⟩ => ⟨S100000x64, .f32⟩
  | .hbm, ⟨61, _⟩ => ⟨S1600000x1, .i32⟩
  | .hbm, ⟨62, _⟩ => ⟨S100000x64, .f32⟩
  | .hbm, ⟨63, _⟩ => ⟨S100000x64, .f32⟩
  | .hbm, ⟨64, _⟩ => ⟨S1600000x1, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000x64, .f32⟩
  | .hbm, ⟨74, _⟩ => ⟨S1600000x64, .f32⟩
  | .hbm, ⟨75, _⟩ => ⟨S1600000x64, .f32⟩
  | .hbm, ⟨76, _⟩ => ⟨S_, .f32⟩
  | .hbm, ⟨77, _⟩ => ⟨S100000x64, .f32⟩
  | .hbm, ⟨78, _⟩ => ⟨S1600000x1, .i32⟩
  | .hbm, ⟨79, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S64x64, .f32⟩
  | .local _ .vmem, ⟨9, _⟩ => ⟨S64, .f32⟩
  | .local _ .vmem, ⟨10, _⟩ => ⟨S10000x64, .f32⟩
  | .local _ .vmem, ⟨11, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_7 : Ref sig .tc := ⟨.hbm, 48, rfl⟩
abbrev main_v31 : Ref sig .tc := ⟨.hbm, 49, rfl⟩
abbrev main_v32 : Ref sig .tc := ⟨.hbm, 50, rfl⟩
abbrev main_c_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_10 : Ref sig .tc := ⟨.hbm, 65, rfl⟩
abbrev main_v45 : Ref sig .tc := ⟨.hbm, 66, rfl⟩
abbrev main_v46 : Ref sig .tc := ⟨.hbm, 67, rfl⟩
abbrev main_c_11 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_12 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S10000x64_S10000x64 : S10000x64.ShapeCasts S10000x64
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S10000x64_S64x64_S10000x64_1_0_0_1_n_n_wf : DotDims.WF S10000x64 S64x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v42) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x64 : Shape := ⟨2, ![1, 64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩

abbrev nBuf : Space → Nat
  | .hbm => 129
  | .vmem => 0
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64, .f32⟩
  | 4 => ⟨S64x64, .f32⟩
  | 5 => ⟨S64, .f32⟩
  | 6 => ⟨S100000x64, .f32⟩
  | 7 => ⟨S1x64, .f32⟩
  | 8 => ⟨S100000x64, .f32⟩
  | 9 => ⟨S100000x64, .f32⟩
  | 10 => ⟨S1x1600000, .i32⟩
  | 11 => ⟨S1600000, .i32⟩
  | 12 => ⟨S1x1600000, .i32⟩
  | 13 => ⟨S1600000, .i32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S100000, .i1⟩
  | 23 => ⟨S_, .f32⟩
  | 24 => ⟨S100000, .f32⟩
  | 25 => ⟨S100000, .f32⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000, .f32⟩
  | 49 => ⟨S1600000, .f32⟩
  | 50 => ⟨S1600000x1, .f32⟩
  | 51 => ⟨S_, .i32⟩
  | 52 => ⟨S1600000, .i32⟩
  | 53 => ⟨S1600000, .i1⟩
  | 54 => ⟨S_, .i32⟩
  | 55 => ⟨S1600000, .i32⟩
  | 56 => ⟨S1600000, .i32⟩
  | 57 => ⟨S1600000, .i32⟩
  | 58 => ⟨S1600000x1, .i32⟩
  | 59 => ⟨S1600000x64, .f32⟩
  | 60 => ⟨S1600000x64, .f32⟩
  | 61 => ⟨S1600000x64, .f32⟩
  | 62 => ⟨S_, .f32⟩
  | 63 => ⟨S100000x64, .f32⟩
  | 64 => ⟨S1600000x1, .i32⟩
  | 65 => ⟨S100000x64, .f32⟩
  | 66 => ⟨S_, .f32⟩
  | 67 => ⟨S100000x64, .f32⟩
  | 68 => ⟨S100000x64, .f32⟩
  | 69 => ⟨S100000x64, .f32⟩
  | 70 => ⟨S1x64, .f32⟩
  | 71 => ⟨S100000x64, .f32⟩
  | 72 => ⟨S100000x64, .f32⟩
  | 73 => ⟨S1x1600000, .i32⟩
  | 74 => ⟨S1600000, .i32⟩
  | 75 => ⟨S1x1600000, .i32⟩
  | 76 => ⟨S1600000, .i32⟩
  | 77 => ⟨S_, .f32⟩
  | 78 => ⟨S1600000, .f32⟩
  | 79 => ⟨S_, .f32⟩
  | 80 => ⟨S100000, .f32⟩
  | 81 => ⟨S1600000x1, .i32⟩
  | 82 => ⟨S100000, .f32⟩
  | 83 => ⟨S_, .f32⟩
  | 84 => ⟨S100000, .f32⟩
  | 85 => ⟨S100000, .i1⟩
  | 86 => ⟨S_, .f32⟩
  | 87 => ⟨S100000, .f32⟩
  | 88 => ⟨S100000, .f32⟩
  | 89 => ⟨S100000, .f32⟩
  | 90 => ⟨S_, .f32⟩
  | 91 => ⟨S_, .f32⟩
  | 92 => ⟨S100000, .f32⟩
  | 93 => ⟨S100000, .f32⟩
  | 94 => ⟨S_, .i32⟩
  | 95 => ⟨S1600000, .i32⟩
  | 96 => ⟨S1600000, .i1⟩
  | 97 => ⟨S_, .i32⟩
  | 98 => ⟨S1600000, .i32⟩
  | 99 => ⟨S1600000, .i32⟩
  | 100 => ⟨S1600000, .i32⟩
  | 101 => ⟨S1600000x1, .i32⟩
  | 102 => ⟨S1600000, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000, .f32⟩
  | 112 => ⟨S1600000, .f32⟩
  | 113 => ⟨S1600000x1, .f32⟩
  | 114 => ⟨S_, .i32⟩
  | 115 => ⟨S1600000, .i32⟩
  | 116 => ⟨S1600000, .i1⟩
  | 117 => ⟨S_, .i32⟩
  | 118 => ⟨S1600000, .i32⟩
  | 119 => ⟨S1600000, .i32⟩
  | 120 => ⟨S1600000, .i32⟩
  | 121 => ⟨S1600000x1, .i32⟩
  | 122 => ⟨S1600000x64, .f32⟩
  | 123 => ⟨S1600000x64, .f32⟩
  | 124 => ⟨S1600000x64, .f32⟩
  | 125 => ⟨S_, .f32⟩
  | 126 => ⟨S100000x64, .f32⟩
  | 127 => ⟨S1600000x1, .i32⟩
  | _ => ⟨S100000x64, .f32⟩

abbrev hbmTy0_1 (i : Nat) : BufTy := match i % 128 with
  | 0 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_call1_cst : Ref sig .tc := ⟨.hbm, 66, rfl⟩
abbrev main_call1_v0 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_v59 : Ref sig .tc := ⟨.hbm, 84, rfl⟩
abbrev main_v60 : Ref sig .tc := ⟨.hbm, 85, rfl⟩
abbrev main_cst_13 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_14 : Ref sig .tc := ⟨.hbm, 90, rfl⟩
abbrev main_call2_v0 : Ref sig .tc := ⟨.hbm, 91, rfl⟩
abbrev main_call2_v1 : Ref sig .tc := ⟨.hbm, 92, rfl⟩
abbrev main_v64 : Ref sig .tc := ⟨.hbm, 93, rfl⟩
abbrev main_c_15 : Ref sig .tc := ⟨.hbm, 94, rfl⟩
abbrev main_v65 : Ref sig .tc := ⟨.hbm, 95, rfl⟩
abbrev main_v66 : Ref sig .tc := ⟨.hbm, 96, rfl⟩
abbrev main_c_16 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_c_19 : Ref sig .tc := ⟨.hbm, 114, rfl⟩
abbrev main_v81 : Ref sig .tc := ⟨.hbm, 115, rfl⟩
abbrev main_v82 : Ref sig .tc := ⟨.hbm, 116, rfl⟩
abbrev main_c_20 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_21 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  dot_S100000x64_S64x64_S100000x64_1_0_0_1_n_n_wf : DotDims.WF S100000x64 S64x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Chain.lean ====
/-
  The graph-convolution host chain as pure functions (nothing here depends on a printed program).

  One layer of the network sends node features h : [N, D] to  agg(h)[v, :] = Σ_{e : col e = v} norm e · h[row e, :],
  where row = edge_index[0], col = edge_index[1], deg v = #{e : col e = v}, dis v = (deg v > 0 ? rsqrt(max(deg v, 1)) : 0)
  and norm e = dis(row e) · dis(col e).  Both programs spell these with the same host operations (slice, reshape,
  scatter-add, compare, select, gather, multiply); the functions below are those spellings over N = 100000 nodes,
  E = 1600000 edges and D = 64 features, generic in the float family, so that each program's composed term is
  recognised as the same function of (edge_index, h) and never opened: a negative index wraps by +N exactly as the
  printed select does, and what an out-of-range index does is whatever the host gather / scatter do, on both sides alike.
-/
import Idealize.ShloMosaic.PureOps

noncomputable section

namespace Cert.Chain

open Idealize.ShloMosaic

abbrev S0 : Shape := ⟨0, ![]⟩
abbrev SN : Shape := ⟨1, ![100000]⟩
abbrev SND : Shape := ⟨2, ![100000, 64]⟩
abbrev SE : Shape := ⟨1, ![1600000]⟩
abbrev SE1 : Shape := ⟨2, ![1600000, 1]⟩
abbrev S1E : Shape := ⟨2, ![1, 1600000]⟩
abbrev S2E : Shape := ⟨2, ![2, 1600000]⟩
abbrev SED : Shape := ⟨2, ![1600000, 64]⟩

/-! ## The layout side conditions and the dimension numbers -/

theorem sl0 : S2E.Slices ![0, 0] S1E := by decide
theorem sl1 : S2E.Slices ![1, 0] S1E := by decide
theorem sc : S1E.ShapeCasts SE := by decide
theorem b0E : S0.BroadcastsInDim SE (![] : Fin 0 → Fin SE.rank) := by decide
theorem b0N : S0.BroadcastsInDim SN (![] : Fin 0 → Fin SN.rank) := by decide
theorem b0ND : S0.BroadcastsInDim SND (![] : Fin 0 → Fin SND.rank) := by decide
theorem bEE1 : SE.BroadcastsInDim SE1 (![0] : Fin 1 → Fin SE1.rank) := by decide
theorem bE1ED : SE1.BroadcastsInDim SED (![0, 1] : Fin 2 → Fin SED.rank) := by decide

/-- Scatter of E scalars into N slots by an [E, 1] index column. -/
def scatN : ScatterDims SN SE1 SE where
  updateWindowDims := []
  insertedWindowDims := [0]
  scatterDimsToOperandDims := [0]
  indexVectorDim := 1
/-- Gather of E scalars out of N slots by an [E, 1] index column. -/
def gathN : GatherDims SN SE1 SE where
  offsetDims := []
  collapsedSliceDims := [0]
  operandBatchingDims := []
  startIndicesBatchingDims := []
  startIndexMap := [0]
  indexVectorDim := 1
  sliceSizes := ![1]
/-- Gather of E rows of D entries out of N rows. -/
def gathND : GatherDims SND SE1 SED where
  offsetDims := [1]
  collapsedSliceDims := [0]
  operandBatchingDims := []
  startIndicesBatchingDims := []
  startIndexMap := [0]
  indexVectorDim := 1
  sliceSizes := ![1, 64]
/-- Scatter of E rows of D entries into N rows. -/
def scatND : ScatterDims SND SE1 SED where
  updateWindowDims := [1]
  insertedWindowDims := [0]
  scatterDimsToOperandDims := [0]
  indexVectorDim := 1

variable {F : FTy → Type} [FloatOps F]

/-! ## The chain -/

/-- Source nodes: row 0 of edge_index as a vector of E indices. -/
def rowOf (ei : (⟨S2E, .i32⟩ : BufTy).Contents (Elt F)) : (⟨SE, .i32⟩ : BufTy).Contents (Elt F) :=
  shapeCast SE (extractStridedSlice S1E ![0, 0] ei sl0) sc
/-- Target nodes: row 1 of edge_index. -/
def colOf (ei : (⟨S2E, .i32⟩ : BufTy).Contents (Elt F)) : (⟨SE, .i32⟩ : BufTy).Contents (Elt F) :=
  shapeCast SE (extractStridedSlice S1E ![1, 0] ei sl1) sc
/-- A negative index counts from the end: r < 0 ? r + N : r. -/
def wrap (r : (⟨SE, .i32⟩ : BufTy).Contents (Elt F)) : (⟨SE, .i32⟩ : BufTy).Contents (Elt F) :=
  select (cmpi .slt r (broadcastInDim SE ![] b0E (constantI S0 32 0#32)))
    (addi r (broadcastInDim SE ![] b0E (constantI S0 32 100000#32))) r
/-- In-degree of every node: ones scattered and added at the target nodes. -/
def degOf (col : (⟨SE, .i32⟩ : BufTy).Contents (Elt F)) : (⟨SN, .f32⟩ : BufTy).Contents (Elt F) :=
  Host.scatterAdd scatN (broadcastInDim SN ![] b0N (constant S0 .f32 0x00000000#32)) (broadcastInDim SE1 ![0] bEE1 col)
    (broadcastInDim SE ![] b0E (constant S0 .f32 0x3F800000#32))
/-- deg > 0 ? rsqrt(max(deg, 1)) : 0. -/
def disOf (col : (⟨SE, .i32⟩ : BufTy).Contents (Elt F)) : (⟨SN, .f32⟩ : BufTy).Contents (Elt F) :=
  select (cmpf (F := F) .ogt (degOf col) (broadcastInDim SN ![] b0N (constant S0 .f32 0x00000000#32)))
    (Host.rsqrt (maximumf (degOf col) (broadcastInDim SN ![] b0N (constant S0 .f32 0x3F800000#32))))
    (broadcastInDim SN ![] b0N (id (constant S0 .f32 0x00000000#32)))
/-- The edge weights dis(row e) · dis(col e). -/
def nrmOf (col row : (⟨SE, .i32⟩ : BufTy).Contents (Elt F)) : (⟨SE, .f32⟩ : BufTy).Contents (Elt F) :=
  mulf (Host.gather gathN (disOf col) (broadcastInDim SE1 ![0] bEE1 (wrap row)))
    (Host.gather gathN (disOf col) (broadcastInDim SE1 ![0] bEE1 (wrap col)))
/-- Weighted rows of h gathered at the source nodes, added at the target nodes. -/
def aggOf (col row : (⟨SE, .i32⟩ : BufTy).Contents (Elt F)) (nrm : (⟨SE, .f32⟩ : BufTy).Contents (Elt F))
    (h : (⟨SND, .f32⟩ : BufTy).Contents (Elt F)) : (⟨SND, .f32⟩ : BufTy).Contents (Elt F) :=
  Host.scatterAdd scatND (broadcastInDim SND ![] b0ND (constant S0 .f32 0x00000000#32)) (broadcastInDim SE1 ![0] bEE1 col)
    (mulf (broadcastInDim SED ![0, 1] bE1ED (broadcastInDim SE1 ![0] bEE1 nrm))
      (Host.gather gathND h (broadcastInDim SE1 ![0] bEE1 (wrap row))))
/-- One layer's aggregation as a function of edge_index and the node features. -/
def agg (ei : (⟨S2E, .i32⟩ : BufTy).Contents (Elt F)) (h : (⟨SND, .f32⟩ : BufTy).Contents (Elt F)) :
    (⟨SND, .f32⟩ : BufTy).Contents (Elt F) :=
  aggOf (colOf ei) (rowOf ei) (nrmOf (colOf ei) (rowOf ei)) h

end Cert.Chain

end
-- ==== Proof.LibMatmul.lean ====
/-
  A rows-by-columns product read at an entry (a general lemma: nothing here depends on a program).

  For the dimension numbers "contract the left operand's axis 1 with the right operand's axis 0, no batch axis" over
  operands [A, K] and [K, C], the contraction at entry (a, c), at the ideal values, is the sum over k < K of
  lhs[a, k] · rhs[k, c]; so is a matrix-unit product into a zero accumulator, and so is the host's dot_general.
-/
import Idealize.ShloMosaic.Lib.ValueIdx
import Idealize.ShloMosaic.PureOps.Ideal.Laws

noncomputable section

namespace Cert.Lib.Matmul

open Idealize.ShloMosaic Idealize.ShloMosaic.ValueIdx

variable {A K C : Nat}

/-- The left operand's index keeps the result's row. -/
theorem lhs0 (j : (⟨2, ![A, C]⟩ : Shape).Idx) (q : (DotDims.plain A K C).contr.Idx) :
    ((DotDims.plain A K C).lhsIdx j q 0).val = (j 0).val := by
  unfold DotDims.lhsIdx
  rw [dif_neg (show ¬(0 : Fin 2) ∈ (DotDims.plain A K C).lhsBatch from List.not_mem_nil),
    dif_pos (show (0 : Fin 2) ∈ (DotDims.plain A K C).lhsNonContracting from List.mem_singleton.mpr rfl)]
  rfl

/-- The left operand's column is the contraction coordinate. -/
theorem lhs1 (j : (⟨2, ![A, C]⟩ : Shape).Idx) (q : (DotDims.plain A K C).contr.Idx) :
    ((DotDims.plain A K C).lhsIdx j q 1).val = (q ⟨0, Nat.one_pos⟩).val :=
  (DotDims.plain A K C).lhsIdx_val_of_single rfl j q

/-- The right operand's row is the contraction coordinate. -/
theorem rhs0 (j : (⟨2, ![A, C]⟩ : Shape).Idx) (q : (DotDims.plain A K C).contr.Idx) :
    ((DotDims.plain A K C).rhsIdx j q 0).val = (q ⟨0, Nat.one_pos⟩).val :=
  (DotDims.plain A K C).rhsIdx_val_of_single rfl j q

/-- The right operand's index keeps the result's column. -/
theorem rhs1 (j : (⟨2, ![A, C]⟩ : Shape).Idx) (q : (DotDims.plain A K C).contr.Idx) :
    ((DotDims.plain A K C).rhsIdx j q 1).val = (j 1).val := by
  unfold DotDims.rhsIdx
  rw [dif_neg (show ¬(1 : Fin 2) ∈ (DotDims.plain A K C).rhsBatch from List.not_mem_nil),
    dif_pos (show (1 : Fin 2) ∈ (DotDims.plain A K C).rhsNonContracting from List.mem_singleton.mpr rfl)]
  rfl

/-- The contraction at entry (a, c) is the sum over the K products lhs[a, k] · rhs[k, c]. -/
theorem contr_sum (lhs : (⟨2, ![A, K]⟩ : Shape).Idx → EReal) (rhs : (⟨2, ![K, C]⟩ : Shape).Idx → EReal)
    (a : Fin A) (c : Fin C) :
    ∑ q : (DotDims.plain A K C).contr.Idx,
        lhs ((DotDims.plain A K C).lhsIdx (ix2 a c) q) * rhs ((DotDims.plain A K C).rhsIdx (ix2 a c) q)
      = ∑ k : Fin K, lhs (ix2 a k) * rhs (ix2 k c) := by
  rw [← Equiv.sum_comp (contrEquiv1 (DotDims.plain A K C) K rfl rfl).symm]
  refine Finset.sum_congr rfl fun k _ => ?_
  have hk := contrEquiv1_symm_val (DotDims.plain A K C) K rfl rfl k
  have el : (DotDims.plain A K C).lhsIdx (ix2 a c) ((contrEquiv1 (DotDims.plain A K C) K rfl rfl).symm k)
      = ix2 a k := funext fun x => Fin.ext (by
    match x with
    | ⟨0, _⟩ => exact lhs0 _ _
    | ⟨1, _⟩ => exact (lhs1 _ _).trans hk)
  have er : (DotDims.plain A K C).rhsIdx (ix2 a c) ((contrEquiv1 (DotDims.plain A K C) K rfl rfl).symm k)
      = ix2 k c := funext fun x => Fin.ext (by
    match x with
    | ⟨0, _⟩ => exact (rhs0 _ _).trans hk
    | ⟨1, _⟩ => exact rhs1 _ _)
  rw [el, er]

/-- A matrix-unit product into a zero accumulator, at entry (a, c). -/
theorem matmul_zero_apply {φ₁ φ₂ : FTy} (prec : Option ContractPrecision)
    (lhs : FVec Ideal ⟨2, ![A, K]⟩ φ₁) (rhs : FVec Ideal ⟨2, ![K, C]⟩ φ₂) (a : Fin A) (c : Fin C) :
    FloatOps.matmul (DotDims.plain A K C) prec lhs rhs (constant ⟨2, ![A, C]⟩ .f32 0x00000000#32) (ix2 a c)
      = ∑ k : Fin K, (lhs (ix2 a k) : EReal) * (rhs (ix2 k c) : EReal) := by
  rw [Ideal.matmul_constant_zero_apply]
  exact contr_sum lhs rhs a c

/-- The host's dot_general, at entry (a, c). -/
theorem dotGeneral_apply {φ₁ φ₂ : FTy} (prec : Option ContractPrecision) (sched : HostSchedule)
    (lhs : FVec Ideal ⟨2, ![A, K]⟩ φ₁) (rhs : FVec Ideal ⟨2, ![K, C]⟩ φ₂) (a : Fin A) (c : Fin C) :
    FloatOps.dotGeneral (DotDims.plain A K C) prec sched lhs rhs (ix2 a c)
      = ∑ k : Fin K, (lhs (ix2 a k) : EReal) * (rhs (ix2 k c) : EReal) := by
  rw [Ideal.dotGeneral_apply]
  exact contr_sum lhs rhs a c

end Cert.Lib.Matmul

end
-- ==== Proof.LibLayout.lean ====
/-
  A row vector broadcast along the rows, read at an entry (a general lemma: nothing here depends on a program).

  A vector of B entries, shape-cast to one row [1, B] and broadcast to A rows [A, B], holds at (p, q) the vector's
  entry q.
-/
import Idealize.ShloMosaic.Lib.ValueIdx
import Idealize.ShloMosaic.Lib.Pipeline.Value

noncomputable section

namespace Cert.Lib.Layout

open Idealize.ShloMosaic Idealize.ShloMosaic.ValueIdx

/-- The one row [1, B] of a vector, at (0, q), is the vector at q. -/
theorem rowCast_apply {α : Type} {B : Nat} (v : (⟨1, ![B]⟩ : Shape).Idx → α)
    (h1 : (⟨1, ![B]⟩ : Shape).ShapeCasts ⟨2, ![1, B]⟩) (z : Fin 1) (q : Fin B) :
    shapeCast ⟨2, ![1, B]⟩ v h1 (ix2 z q) = v (ix1 q) := by
  refine (shapeCast_addUnit_apply (n := 1) ![B] v h1 (ix2 z q)).trans (congrArg v ?_)
  funext a
  match a with
  | ⟨0, _⟩ => rfl

/-- The row broadcast to A rows, at (p, q), is the vector at q. -/
theorem bcastRow_apply {α : Type} {A B : Nat} (v : (⟨1, ![B]⟩ : Shape).Idx → α)
    (h1 : (⟨1, ![B]⟩ : Shape).ShapeCasts ⟨2, ![1, B]⟩) (h2 : (⟨2, ![1, B]⟩ : Shape).Broadcasts ⟨2, ![A, B]⟩)
    (p : Fin A) (q : Fin B) :
    broadcastTo ⟨2, ![A, B]⟩ (shapeCast ⟨2, ![1, B]⟩ v h1) h2 (ix2 p q) = v (ix1 q) := by
  refine (broadcastTo_apply (shapeCast ⟨2, ![1, B]⟩ v h1) h2 (ix2 p q) (ix2 (0 : Fin 1) q) ?_).trans
    (rowCast_apply v h1 0 q)
  intro a
  match a with
  | ⟨0, _⟩ => simp
  | ⟨1, _⟩ =>
    show q.val = if B = 1 then 0 else q.val
    split
    · have := q.isLt; omega
    · rfl

end Cert.Lib.Layout

end
-- ==== Proof.LibDense.lean ====
/-
  A dense layer read as one whole-array function (a general lemma: nothing here depends on a program).

  For x : [A, K], w : [K, C] and b : [C] the affine map is (x·w + b)[a, c] = Σ_{k<K} x[a, k]·w[k, c] + b[c], and its
  rectified form is max(·, 0).  Two spellings compute them at the ideal values.  The matrix unit's: both operands narrowed
  to bf16 (the identity on the extended reals), the product into a zero accumulator, the bias as one row broadcast down the
  rows, the rectifier against a scalar splat.  The host's: dot_general, the bias through two broadcast_in_dim, the
  rectifier against a broadcast scalar constant.  Both are the same function of (x, w, b), entry by entry; the zero the
  rectifier compares with is kept as the word's ideal value on both sides and never evaluated.
-/
import Idealize.ShloMosaic.Lib.ValueIdx
import Idealize.ShloMosaic.Lib.Pipeline.Value
import Idealize.ShloMosaic.PureOps.Ideal.Laws
import proofs.«136392_j12206297055836_1_alg».proof.Proof.LibMatmul
import proofs.«136392_j12206297055836_1_alg».proof.Proof.LibLayout

noncomputable section

namespace Cert.Lib.Dense

open Idealize.ShloMosaic Idealize.ShloMosaic.ValueIdx

variable {A K C : Nat}

/-- (x·w + b) at every entry: row a of x against column c of w, plus the bias of column c. -/
def affine (x : (⟨2, ![A, K]⟩ : Shape).Idx → EReal) (w : (⟨2, ![K, C]⟩ : Shape).Idx → EReal)
    (b : (⟨1, ![C]⟩ : Shape).Idx → EReal) : (⟨2, ![A, C]⟩ : Shape).Idx → EReal :=
  fun i => (∑ k : Fin K, x (ix2 (i 0 : Fin A) k) * w (ix2 k (i 1 : Fin C))) + b (ix1 (i 1 : Fin C))

/-- max(x·w + b, 0) at every entry, the zero being the ideal value of the all-zero f32 word. -/
def rectified (x : (⟨2, ![A, K]⟩ : Shape).Idx → EReal) (w : (⟨2, ![K, C]⟩ : Shape).Idx → EReal)
    (b : (⟨1, ![C]⟩ : Shape).Idx → EReal) : (⟨2, ![A, C]⟩ : Shape).Idx → EReal :=
  fun i => max (affine x w b i) (Ideal.ofBits .f32 0x00000000#32)

theorem affine_apply (x : (⟨2, ![A, K]⟩ : Shape).Idx → EReal) (w : (⟨2, ![K, C]⟩ : Shape).Idx → EReal)
    (b : (⟨1, ![C]⟩ : Shape).Idx → EReal) (a : Fin A) (c : Fin C) :
    affine x w b (ix2 a c) = (∑ k : Fin K, x (ix2 a k) * w (ix2 k c)) + b (ix1 c) := rfl

theorem rectified_apply (x : (⟨2, ![A, K]⟩ : Shape).Idx → EReal) (w : (⟨2, ![K, C]⟩ : Shape).Idx → EReal)
    (b : (⟨1, ![C]⟩ : Shape).Idx → EReal) (a : Fin A) (c : Fin C) :
    rectified x w b (ix2 a c)
      = max ((∑ k : Fin K, x (ix2 a k) * w (ix2 k c)) + b (ix1 c)) (Ideal.ofBits .f32 0x00000000#32) := rfl

/-! ## The matrix unit's spelling -/

/-- Narrowed operands into a zero accumulator, plus the bias row broadcast down: the affine map. -/
theorem mxu_affine (x : FVec Ideal ⟨2, ![A, K]⟩ .f32) (w : FVec Ideal ⟨2, ![K, C]⟩ .f32) (b : FVec Ideal ⟨1, ![C]⟩ .f32)
    (hx : (⟨2, ![A, K]⟩ : Shape).ShapeCasts ⟨2, ![A, K]⟩) (hw : (⟨2, ![K, C]⟩ : Shape).ShapeCasts ⟨2, ![K, C]⟩)
    (hlt : FTy.bf16.bits < FTy.f32.bits)
    (h1 : (⟨1, ![C]⟩ : Shape).ShapeCasts ⟨2, ![1, C]⟩) (h2 : (⟨2, ![1, C]⟩ : Shape).Broadcasts ⟨2, ![A, C]⟩)
    (prec : Option ContractPrecision) :
    addf (matmul (DotDims.plain A K C) prec (truncf .bf16 (shapeCast ⟨2, ![A, K]⟩ x hx) hlt)
        (truncf .bf16 (shapeCast ⟨2, ![K, C]⟩ w hw) hlt) (constant ⟨2, ![A, C]⟩ .f32 0x00000000#32))
      (broadcastTo ⟨2, ![A, C]⟩ (shapeCast ⟨2, ![1, C]⟩ b h1) h2)
    = affine x w b := by
  funext i
  obtain ⟨a, c, rfl⟩ : ∃ (a : Fin A) (c : Fin C), i = ix2 a c := ⟨i 0, i 1, eq_ix2 i⟩
  rw [addf_apply, affine_apply]
  show FloatOps.matmul (DotDims.plain A K C) prec _ _ (constant ⟨2, ![A, C]⟩ .f32 0x00000000#32) (ix2 a c) + _ = _
  rw [Cert.Lib.Matmul.matmul_zero_apply, Cert.Lib.Layout.bcastRow_apply]
  simp only [truncf_apply, shapeCast_self]

/-- The same against a scalar splat of zero: the rectified map. -/
theorem mxu_rectified (x : FVec Ideal ⟨2, ![A, K]⟩ .f32) (w : FVec Ideal ⟨2, ![K, C]⟩ .f32) (b : FVec Ideal ⟨1, ![C]⟩ .f32)
    (hx : (⟨2, ![A, K]⟩ : Shape).ShapeCasts ⟨2, ![A, K]⟩) (hw : (⟨2, ![K, C]⟩ : Shape).ShapeCasts ⟨2, ![K, C]⟩)
    (hlt : FTy.bf16.bits < FTy.f32.bits)
    (h1 : (⟨1, ![C]⟩ : Shape).ShapeCasts ⟨2, ![1, C]⟩) (h2 : (⟨2, ![1, C]⟩ : Shape).Broadcasts ⟨2, ![A, C]⟩)
    (prec : Option ContractPrecision) :
    maximumf (addf (matmul (DotDims.plain A K C) prec (truncf .bf16 (shapeCast ⟨2, ![A, K]⟩ x hx) hlt)
          (truncf .bf16 (shapeCast ⟨2, ![K, C]⟩ w hw) hlt) (constant ⟨2, ![A, C]⟩ .f32 0x00000000#32))
        (broadcastTo ⟨2, ![A, C]⟩ (shapeCast ⟨2, ![1, C]⟩ b h1) h2))
      (broadcast ⟨2, ![A, C]⟩ (Scalar.ofBits (F := Ideal) .f32 0x00000000#32))
    = rectified x w b := by
  funext i
  rw [maximumf_apply, mxu_affine]
  rfl

/-! ## The host's spelling -/

/-- A vector of C entries broadcast to one row and then down A rows, at (a, c), is the vector at c. -/
theorem hostBias_apply (b : (⟨1, ![C]⟩ : Shape).Idx → EReal)
    (hb1 : (⟨1, ![C]⟩ : Shape).BroadcastsInDim ⟨2, ![1, C]⟩ (![1] : Fin 1 → Fin 2))
    (hb2 : (⟨2, ![1, C]⟩ : Shape).BroadcastsInDim ⟨2, ![A, C]⟩ (![0, 1] : Fin 2 → Fin 2)) (a : Fin A) (c : Fin C) :
    broadcastInDim ⟨2, ![A, C]⟩ (![0, 1] : Fin 2 → Fin 2) hb2
        (broadcastInDim ⟨2, ![1, C]⟩ (![1] : Fin 1 → Fin 2) hb1 b) (ix2 a c) = b (ix1 c) := by
  refine (broadcastInDim_apply (![0, 1] : Fin 2 → Fin 2) hb2 _ (ix2 a c) (ix2 (0 : Fin 1) c) ?_).trans
    (broadcastInDim_apply (![1] : Fin 1 → Fin 2) hb1 b (ix2 (0 : Fin 1) c) (ix1 c) ?_)
  · intro d
    match d with
    | ⟨0, _⟩ => simp
    | ⟨1, _⟩ =>
      show c.val = if C = 1 then 0 else c.val
      split
      · have := c.isLt; omega
      · rfl
  · intro d
    match d with
    | ⟨0, _⟩ =>
      show c.val = if C = 1 then 0 else c.val
      split
      · have := c.isLt; omega
      · rfl

/-- dot_general plus the bias through two broadcast_in_dim: the affine map. -/
theorem host_affine (x : FVec Ideal ⟨2, ![A, K]⟩ .f32) (w : FVec Ideal ⟨2, ![K, C]⟩ .f32) (b : FVec Ideal ⟨1, ![C]⟩ .f32)
    (hb1 : (⟨1, ![C]⟩ : Shape).BroadcastsInDim ⟨2, ![1, C]⟩ (![1] : Fin 1 → Fin 2))
    (hb2 : (⟨2, ![1, C]⟩ : Shape).BroadcastsInDim ⟨2, ![A, C]⟩ (![0, 1] : Fin 2 → Fin 2))
    (prec : Option ContractPrecision) :
    addf (Host.dotGeneral (DotDims.plain A K C) prec x w)
      (broadcastInDim ⟨2, ![A, C]⟩ (![0, 1] : Fin 2 → Fin 2) hb2
        (broadcastInDim ⟨2, ![1, C]⟩ (![1] : Fin 1 → Fin 2) hb1 b))
    = affine x w b := by
  funext i
  obtain ⟨a, c, rfl⟩ : ∃ (a : Fin A) (c : Fin C), i = ix2 a c := ⟨i 0, i 1, eq_ix2 i⟩
  rw [addf_apply, affine_apply, hostBias_apply]
  show FloatOps.dotGeneral (DotDims.plain A K C) prec .single x w (ix2 a c) + _ = _
  rw [Cert.Lib.Matmul.dotGeneral_apply]

/-- The same against a broadcast scalar constant zero: the rectified map. -/
theorem host_rectified (x : FVec Ideal ⟨2, ![A, K]⟩ .f32) (w : FVec Ideal ⟨2, ![K, C]⟩ .f32) (b : FVec Ideal ⟨1, ![C]⟩ .f32)
    (hb1 : (⟨1, ![C]⟩ : Shape).BroadcastsInDim ⟨2, ![1, C]⟩ (![1] : Fin 1 → Fin 2))
    (hb2 : (⟨2, ![1, C]⟩ : Shape).BroadcastsInDim ⟨2, ![A, C]⟩ (![0, 1] : Fin 2 → Fin 2))
    (h0 : (⟨0, ![]⟩ : Shape).BroadcastsInDim ⟨2, ![A, C]⟩ (![] : Fin 0 → Fin 2))
    (prec : Option ContractPrecision) :
    maximumf (addf (Host.dotGeneral (DotDims.plain A K C) prec x w)
        (broadcastInDim ⟨2, ![A, C]⟩ (![0, 1] : Fin 2 → Fin 2) hb2
          (broadcastInDim ⟨2, ![1, C]⟩ (![1] : Fin 1 → Fin 2) hb1 b)))
      (broadcastInDim ⟨2, ![A, C]⟩ (![] : Fin 0 → Fin 2) h0 (constant (F := Ideal) ⟨0, ![]⟩ .f32 0x00000000#32))
    = rectified x w b := by
  funext i
  rw [maximumf_apply, host_affine,
    broadcastInDim_apply (![] : Fin 0 → Fin 2) h0 _ i ix0 (fun d => d.elim0)]
  rfl

end Cert.Lib.Dense

end
-- ==== Proof.Spec.lean ====
/-
  The two-layer graph convolution as ONE function of the six arguments, at the ideal values.

  out = agg(ei, max(agg(ei, x·W1 + b1), 0)·W2 + b2): a dense layer, the normalised neighbourhood sum `Chain.agg`, the
  rectifier, a second dense layer and the same neighbourhood sum.  The kernel program computes each dense layer (the
  second with the rectifier fused in front) in a pipelined launch and the reference with one host product; both feed
  the same host chain.  This is the function both programs' results are shown to be.
-/
import proofs.«136392_j12206297055836_1_alg».proof.Proof.Chain
import proofs.«136392_j12206297055836_1_alg».proof.Proof.LibDense

noncomputable section

namespace Cert.Spec

open Idealize.ShloMosaic Cert.Chain Cert.Lib.Dense

/-- max(·, 0) entry by entry, the zero being the ideal value of the all-zero f32 word. -/
def reluArr {S : Shape} (a : S.Idx → EReal) : S.Idx → EReal := fun i => max (a i) (Ideal.ofBits .f32 0x00000000#32)

/-- The network's output as a function of (x, edge_index, W1, b1, W2, b2). -/
def gcn (x : (⟨2, ![100000, 64]⟩ : Shape).Idx → EReal) (ei : (⟨S2E, .i32⟩ : BufTy).Contents (Elt Ideal))
    (w1 : (⟨2, ![64, 64]⟩ : Shape).Idx → EReal) (b1 : (⟨1, ![64]⟩ : Shape).Idx → EReal)
    (w2 : (⟨2, ![64, 64]⟩ : Shape).Idx → EReal) (b2 : (⟨1, ![64]⟩ : Shape).Idx → EReal) :
    (⟨2, ![100000, 64]⟩ : Shape).Idx → EReal :=
  agg (F := Ideal) ei (affine (A := 100000) (K := 64) (C := 64)
    (reluArr (agg (F := Ideal) ei (affine (A := 100000) (K := 64) (C := 64) x w1 b1))) w2 b2)

end Cert.Spec

end
-- ==== Proof.Body.lean ====
/-
  The two kernel bodies' arithmetic at the ideal values, as whole-block functions.

  Both launches run the same linear kernel on a block of 10000 rows: the block and the 64 x 64 weight narrowed to bf16 (the
  identity on the extended reals), their product on the matrix unit into a zero accumulator, the bias added as one row
  broadcast down the rows.  So what the first launch stores is the affine map x·w + b of the block; the second first clamps
  the block at zero from below, so it stores the affine map of max(x, 0).
-/
import proofs.«136392_j12206297055836_1_alg».proof.Proof.Gen.KernelIdeal.Skeleton
import proofs.«136392_j12206297055836_1_alg».proof.Proof.Spec

noncomputable section

namespace Cert.KernelIdeal.Body

open Cert.KernelIdeal Cert.KernelIdeal.Gen Idealize.ShloMosaic Idealize.ShloMosaic.ValueIdx Cert.Lib.Dense Cert.Spec

/-- The first launch stores x·w + b of its block. -/
theorem pay0_eq (x : Vec Ideal S10000x64 .f32) (w : Vec Ideal S64x64 .f32) (b : Vec Ideal S64 .f32) :
    k0_pay1 (F := Ideal) x w b = affine (A := 10000) (K := 64) (C := 64) x w b := by
  unfold k0_pay1
  funext i
  obtain ⟨p, q, rfl⟩ : ∃ (p : Fin 10000) (q : Fin 64), i = ix2 p q := ⟨i 0, i 1, eq_ix2 i⟩
  rw [addf_apply, affine_apply]
  show FloatOps.matmul (DotDims.plain 10000 64 64) none _ _ (constant ⟨2, ![10000, 64]⟩ .f32 0x00000000#32) (ix2 p q) + _ = _
  rw [Cert.Lib.Matmul.matmul_zero_apply, Cert.Lib.Layout.bcastRow_apply]
  simp only [truncf_apply]

/-- The second launch stores max(x, 0)·w + b of its block. -/
theorem pay1_eq (x : Vec Ideal S10000x64 .f32) (w : Vec Ideal S64x64 .f32) (b : Vec Ideal S64 .f32) :
    k1_pay1 (F := Ideal) x w b = affine (A := 10000) (K := 64) (C := 64) (reluArr x) w b := by
  unfold k1_pay1
  funext i
  obtain ⟨p, q, rfl⟩ : ∃ (p : Fin 10000) (q : Fin 64), i = ix2 p q := ⟨i 0, i 1, eq_ix2 i⟩
  rw [addf_apply, affine_apply]
  show FloatOps.matmul (DotDims.plain 10000 64 64) none _ _ (constant ⟨2, ![10000, 64]⟩ .f32 0x00000000#32) (ix2 p q) + _ = _
  rw [Cert.Lib.Matmul.matmul_zero_apply, Cert.Lib.Layout.bcastRow_apply]
  simp only [truncf_apply, maximumf_apply, shapeCast_self]
  rfl

end Cert.KernelIdeal.Body

end
-- ==== Proof.Region.lean ====
/-
  Each launch's output array as ONE function of the arrays the launch finds.

  A launch walks ten grid points; point t stages rows 10000 t … 10000 t + 9999 of its input array beside the whole weight
  and the whole bias, and writes the body's result back to the same rows of the output array.  Row p of x·w + b depends
  only on row p of x, so the block of the affine map of the array is the affine map of the block, and the ten blocks tile
  the 100000 rows: the output array ends holding the affine map of the whole input (for the second launch, of the input
  clamped at zero), whatever contents `V` the launch was entered with.
-/
import proofs.«136392_j12206297055836_1_alg».proof.Proof.Gen.KernelIdeal.Frame
import proofs.«136392_j12206297055836_1_alg».proof.Proof.Body
import Idealize.ShloMosaic.Lib.Pipeline.Value

set_option maxRecDepth 16384

noncomputable section

namespace Cert.KernelIdeal.Region

open Cert.KernelIdeal Cert.KernelIdeal.Gen Cert.KernelIdeal.Body Idealize.ShloMosaic Idealize.ShloMosaic.TcCoe Idealize.SL.Sem
open Idealize.ShloMosaic.ValueIdx Cert.Lib.Dense Cert.Spec
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## Launch 0 -/

/-- The printed index maps of launch 0, decided over its ten grid points: the row block of the input and of the output is
    the grid point, every other block index is zero. -/
theorem idx0 : ∀ t : Fin cfg0.N, win0_0.index t (0 : Fin 2) = win0_3.index t (0 : Fin 2) ∧ win0_0.index t (1 : Fin 2) = 0
    ∧ win0_1.index t (0 : Fin 2) = 0 ∧ win0_1.index t (1 : Fin 2) = 0 ∧ win0_2.index t (0 : Fin 1) = 0
    ∧ win0_3.index t (1 : Fin 2) = 0 ∧ win0_3.index t (0 : Fin 2) = t.val :=
  (by decide +kernel : ∀ t : Fin grid0.N, _)

/-- What grid point t writes back is block t (rows 10000 t … 10000 t + 9999) of x·w + b of the arrays the launch finds:
    the input block is those rows of its array, the weight and the bias blocks are their whole arrays. -/
theorem flushed0_eq (c : Dev nD) (t : Fin cfg0.N) :
    (dat0 V c).flushed 3 t = ((cfg0.win 3).blk t).view.read (Elt Ideal)
      (affine (A := 100000) (K := 64) (C := 64) (V c main_arg0) (V c main_arg2) (V c main_arg3)) := by
  show (cfg0.win 3).cut (grid0.coords t) ((dat0 V c).after 3 t) = _
  rw [after0_3]
  unfold out0_3
  rw [View.canon_unit_zero hz2]
  simp only [View.ld_unit_zero (S := S10000x64) hz2, View.ld_unit_zero (S := S64x64) hz2, View.ld_unit_zero (S := S64) hz1]
  rw [pay0_eq]
  obtain ⟨e0, e1, e2, e3, e4, e5, e6⟩ := idx0 t
  funext j
  show affine (A := 10000) (K := 64) (C := 64) (iblk0 V c 0 t) (iblk0 V c 1 t) (iblk0 V c 2 t) j
    = affine (A := 100000) (K := 64) (C := 64) (V c main_arg0) (V c main_arg2) (V c main_arg3) (((cfg0.win 3).blk t).view.emb j)
  have hx : ∀ k : Fin 64, iblk0 V c 0 t (ix2 (j 0) k) = V c main_arg0 (ix2 ((((cfg0.win 3).blk t).view.emb j) 0) k) := fun k => by
    show V c main_arg0 (((cfg0.win 0).blk t).view.emb (ix2 (j 0) k)) = _
    refine congrArg (V c main_arg0) (funext fun a => Fin.ext ?_)
    match a with
    | ⟨0, _⟩ => show win0_0.index t (0 : Fin 2) * 10000 + 1 * (j 0).val = win0_3.index t (0 : Fin 2) * 10000 + 1 * (j 0).val; omega
    | ⟨1, _⟩ => show win0_0.index t (1 : Fin 2) * 64 + 1 * k.val = k.val; omega
  have hw : ∀ k : Fin 64, iblk0 V c 1 t (ix2 k (j 1)) = V c main_arg2 (ix2 k ((((cfg0.win 3).blk t).view.emb j) 1)) := fun k => by
    show V c main_arg2 (((cfg0.win 1).blk t).view.emb (ix2 k (j 1))) = _
    refine congrArg (V c main_arg2) (funext fun a => Fin.ext ?_)
    match a with
    | ⟨0, _⟩ => show win0_1.index t (0 : Fin 2) * 64 + 1 * k.val = k.val; omega
    | ⟨1, _⟩ => show win0_1.index t (1 : Fin 2) * 64 + 1 * (j 1).val = win0_3.index t (1 : Fin 2) * 64 + 1 * (j 1).val; omega
  have hb : iblk0 V c 2 t (ix1 (j 1)) = V c main_arg3 (ix1 ((((cfg0.win 3).blk t).view.emb j) 1)) := by
    show V c main_arg3 (((cfg0.win 2).blk t).view.emb (ix1 (j 1))) = _
    refine congrArg (V c main_arg3) (funext fun a => Fin.ext ?_)
    match a with
    | ⟨0, _⟩ => show win0_2.index t (0 : Fin 1) * 64 + 1 * (j 1).val = win0_3.index t (1 : Fin 2) * 64 + 1 * (j 1).val; omega
  unfold affine
  simp only [hx, hw, hb]

/-- An index of the array is in point t's block iff each coordinate is in the block's range on its axis. -/
theorem mem_blk0 (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v29).slice (win0_3.rect t)).set ↔ _
  rw [View.set_slice_whole, Rect.mem_set_unit]
  exact Iff.rfl

/-- The ten row blocks cover the array: row r lies in the block of point r / 10000. -/
theorem cover0 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 10 := N_0
  have ht : (i 0).val / 10000 < cfg0.N := by omega
  refine ⟨⟨(i 0).val / 10000, ht⟩, flush0_3 _, ?_⟩
  rw [mem_blk0]
  obtain ⟨e0, e1, e2, e3, e4, e5, e6⟩ := idx0 ⟨(i 0).val / 10000, ht⟩
  intro a
  match a with
  | ⟨0, _⟩ =>
    show win0_3.index ⟨(i 0).val / 10000, ht⟩ (0 : Fin 2) * 10000 ≤ (i 0).val ∧ (i 0).val < win0_3.index ⟨(i 0).val / 10000, ht⟩ (0 : Fin 2) * 10000 + 10000
    rw [e6]; show (i 0).val / 10000 * 10000 ≤ (i 0).val ∧ (i 0).val < (i 0).val / 10000 * 10000 + 10000; omega
  | ⟨1, _⟩ =>
    show win0_3.index ⟨(i 0).val / 10000, ht⟩ (1 : Fin 2) * 64 ≤ (i 1).val ∧ (i 1).val < win0_3.index ⟨(i 0).val / 10000, ht⟩ (1 : Fin 2) * 64 + 64
    rw [e5]; omega

/-- After launch 0 its output array holds x·w + b of the arrays it found, whole. -/
theorem final0 (c : Dev nD) :
    (dat0 V c).arrAt 3 cfg0.N = affine (A := 100000) (K := 64) (C := 64) (V c main_arg0) (V c main_arg2) (V c main_arg3) :=
  (dat0 V c).arrAt_eq_of_cover 3 _ (fun t _ => flushed0_eq V c t) (cover0)

/-! ## Launch 1 -/

/-- The printed index maps of launch 1, decided over its ten grid points: the row block of the input and of the output is
    the grid point, every other block index is zero. -/
theorem idx1 : ∀ t : Fin cfg1.N, win1_0.index t (0 : Fin 2) = win1_3.index t (0 : Fin 2) ∧ win1_0.index t (1 : Fin 2) = 0
    ∧ win1_1.index t (0 : Fin 2) = 0 ∧ win1_1.index t (1 : Fin 2) = 0 ∧ win1_2.index t (0 : Fin 1) = 0
    ∧ win1_3.index t (1 : Fin 2) = 0 ∧ win1_3.index t (0 : Fin 2) = t.val :=
  (by decide +kernel : ∀ t : Fin grid1.N, _)

/-- What grid point t writes back is block t (rows 10000 t … 10000 t + 9999) of max(x, 0)·w + b of the arrays the launch finds:
    the input block is those rows of its array, the weight and the bias blocks are their whole arrays. -/
theorem flushed1_eq (c : Dev nD) (t : Fin cfg1.N) :
    (dat1 V c).flushed 3 t = ((cfg1.win 3).blk t).view.read (Elt Ideal)
      (affine (A := 100000) (K := 64) (C := 64) (reluArr (V c main_v42)) (V c main_arg4) (V c main_arg5)) := by
  show (cfg1.win 3).cut (grid1.coords t) ((dat1 V c).after 3 t) = _
  rw [after1_3]
  unfold out1_3
  rw [View.canon_unit_zero hz2]
  simp only [View.ld_unit_zero (S := S10000x64) hz2, View.ld_unit_zero (S := S64x64) hz2, View.ld_unit_zero (S := S64) hz1]
  rw [pay1_eq]
  obtain ⟨e0, e1, e2, e3, e4, e5, e6⟩ := idx1 t
  funext j
  show affine (A := 10000) (K := 64) (C := 64) (reluArr (iblk1 V c 0 t)) (iblk1 V c 1 t) (iblk1 V c 2 t) j
    = affine (A := 100000) (K := 64) (C := 64) (reluArr (V c main_v42)) (V c main_arg4) (V c main_arg5) (((cfg1.win 3).blk t).view.emb j)
  have hx : ∀ k : Fin 64, iblk1 V c 0 t (ix2 (j 0) k) = V c main_v42 (ix2 ((((cfg1.win 3).blk t).view.emb j) 0) k) := fun k => by
    show V c main_v42 (((cfg1.win 0).blk t).view.emb (ix2 (j 0) k)) = _
    refine congrArg (V c main_v42) (funext fun a => Fin.ext ?_)
    match a with
    | ⟨0, _⟩ => show win1_0.index t (0 : Fin 2) * 10000 + 1 * (j 0).val = win1_3.index t (0 : Fin 2) * 10000 + 1 * (j 0).val; omega
    | ⟨1, _⟩ => show win1_0.index t (1 : Fin 2) * 64 + 1 * k.val = k.val; omega
  have hw : ∀ k : Fin 64, iblk1 V c 1 t (ix2 k (j 1)) = V c main_arg4 (ix2 k ((((cfg1.win 3).blk t).view.emb j) 1)) := fun k => by
    show V c main_arg4 (((cfg1.win 1).blk t).view.emb (ix2 k (j 1))) = _
    refine congrArg (V c main_arg4) (funext fun a => Fin.ext ?_)
    match a with
    | ⟨0, _⟩ => show win1_1.index t (0 : Fin 2) * 64 + 1 * k.val = k.val; omega
    | ⟨1, _⟩ => show win1_1.index t (1 : Fin 2) * 64 + 1 * (j 1).val = win1_3.index t (1 : Fin 2) * 64 + 1 * (j 1).val; omega
  have hb : iblk1 V c 2 t (ix1 (j 1)) = V c main_arg5 (ix1 ((((cfg1.win 3).blk t).view.emb j) 1)) := by
    show V c main_arg5 (((cfg1.win 2).blk t).view.emb (ix1 (j 1))) = _
    refine congrArg (V c main_arg5) (funext fun a => Fin.ext ?_)
    match a with
    | ⟨0, _⟩ => show win1_2.index t (0 : Fin 1) * 64 + 1 * (j 1).val = win1_3.index t (1 : Fin 2) * 64 + 1 * (j 1).val; omega
  unfold affine reluArr
  simp only [hx, hw, hb]

/-- An index of the array is in point t's block iff each coordinate is in the block's range on its axis. -/
theorem mem_blk1 (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v43).slice (win1_3.rect t)).set ↔ _
  rw [View.set_slice_whole, Rect.mem_set_unit]
  exact Iff.rfl

/-- The ten row blocks cover the array: row r lies in the block of point r / 10000. -/
theorem cover1 (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 10 := N_1
  have ht : (i 0).val / 10000 < cfg1.N := by omega
  refine ⟨⟨(i 0).val / 10000, ht⟩, flush1_3 _, ?_⟩
  rw [mem_blk1]
  obtain ⟨e0, e1, e2, e3, e4, e5, e6⟩ := idx1 ⟨(i 0).val / 10000, ht⟩
  intro a
  match a with
  | ⟨0, _⟩ =>
    show win1_3.index ⟨(i 0).val / 10000, ht⟩ (0 : Fin 2) * 10000 ≤ (i 0).val ∧ (i 0).val < win1_3.index ⟨(i 0).val / 10000, ht⟩ (0 : Fin 2) * 10000 + 10000
    rw [e6]; show (i 0).val / 10000 * 10000 ≤ (i 0).val ∧ (i 0).val < (i 0).val / 10000 * 10000 + 10000; omega
  | ⟨1, _⟩ =>
    show win1_3.index ⟨(i 0).val / 10000, ht⟩ (1 : Fin 2) * 64 ≤ (i 1).val ∧ (i 1).val < win1_3.index ⟨(i 0).val / 10000, ht⟩ (1 : Fin 2) * 64 + 64
    rw [e5]; omega

/-- After launch 1 its output array holds max(x, 0)·w + b of the arrays it found, whole. -/
theorem final1 (c : Dev nD) :
    (dat1 V c).arrAt 3 cfg1.N = affine (A := 100000) (K := 64) (C := 64) (reluArr (V c main_v42)) (V c main_arg4) (V c main_arg5) :=
  (dat1 V c).arrAt_eq_of_cover 3 _ (fun t _ => flushed1_eq V c t) (cover1)

end Cert.KernelIdeal.Region

end
-- ==== Proof.KValue.lean ====
/-
  What the kernel program's result buffer holds at the end of its run, as the network function of the arguments.

  @main's buffer contents are followed boundary by boundary: the host operations before the first launch leave the
  source and target node vectors and the edge weights (functions of edge_index alone); the first launch leaves x·W1 + b1 in
  its output array and touches nothing else; the host operations between the launches leave the neighbourhood sum of that;
  the second launch leaves max(·, 0)·W2 + b2 of it; the last host operations leave the neighbourhood sum again.  A buffer that
  a stretch or a launch does not write keeps its contents, which is how the node vectors, the weights and the arguments reach
  the places they are read.  The host stretches are read for any float family; the launches' arrays at the ideal values.
-/
import proofs.«136392_j12206297055836_1_alg».proof.Proof.KRun
import proofs.«136392_j12206297055836_1_alg».proof.Proof.Region
import Idealize.ShloMosaic.Lib.StableHlo.Run

set_option maxRecDepth 16384

noncomputable section

namespace Cert.KernelIdeal.HostValue

open Cert.KernelIdeal Cert.KernelIdeal.Gen Idealize.ShloMosaic Idealize.ShloMosaic.TcCoe Idealize.SL.Sem
open Idealize.ShloMosaic.StableHlo Cert.Chain Cert.Spec Cert.Lib.Dense

section Host

variable {F : FTy → Type} [FloatOps F]
variable (m : (ℓ : Loc nD τ sig) → Buf (Elt F) ℓ) (ρ : Dev nD → PrngReg) (c : Dev nD)

/-! ## Before the first launch: the node vectors, the edge weights, the arguments -/

set_option maxHeartbeats 4000000 in
/-- The source nodes. -/
theorem W3_row : W3 m ρ c (Proc.devRef .tc main_v1) = rowOf (m ((c : Thread nD τ).loc main_arg1)) := by
  show StableHlo.after hostOps0_2 (StableHlo.after hostOps0_1 (StableHlo.after hostOps0 (W0 m ρ c))) (Proc.devRef .tc main_v1) = _
  after_results_simp <;> rfl

set_option maxHeartbeats 4000000 in
/-- The target nodes. -/
theorem W3_col : W3 m ρ c (Proc.devRef .tc main_v3) = colOf (m ((c : Thread nD τ).loc main_arg1)) := by
  show StableHlo.after hostOps0_2 (StableHlo.after hostOps0_1 (StableHlo.after hostOps0 (W0 m ρ c))) (Proc.devRef .tc main_v3) = _
  after_results_simp <;> rfl

set_option maxHeartbeats 4000000 in
/-- The edge weights. -/
theorem W3_nrm : W3 m ρ c (Proc.devRef .tc main_v28)
    = nrmOf (colOf (m ((c : Thread nD τ).loc main_arg1))) (rowOf (m ((c : Thread nD τ).loc main_arg1))) := by
  show StableHlo.after hostOps0_2 (StableHlo.after hostOps0_1 (StableHlo.after hostOps0 (W0 m ρ c))) (Proc.devRef .tc main_v28) = _
  after_results_simp <;> rfl

set_option maxHeartbeats 4000000 in
theorem W3_arg0 : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp <;> rfl
set_option maxHeartbeats 4000000 in
theorem W3_arg2 : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results_simp <;> rfl
set_option maxHeartbeats 4000000 in
theorem W3_arg3 : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp <;> rfl
set_option maxHeartbeats 4000000 in
theorem W3_arg4 : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results_simp <;> rfl
set_option maxHeartbeats 4000000 in
theorem W3_arg5 : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results_simp <;> rfl

/-! ## Between the launches -/

set_option maxHeartbeats 4000000 in
/-- The second launch's input array: the neighbourhood sum of the first launch's output. -/
theorem W5_agg : W5 m ρ c (Proc.devRef .tc main_v42)
    = aggOf (W4 m ρ c (Proc.devRef .tc main_v3)) (W4 m ρ c (Proc.devRef .tc main_v1)) (W4 m ρ c (Proc.devRef .tc main_v28))
        (W4 m ρ c (Proc.devRef .tc main_v29)) := by
  show StableHlo.after hostOps1 (W4 m ρ c) (Proc.devRef .tc main_v42) = _
  after_results_simp <;> rfl

set_option maxHeartbeats 4000000 in
/-- The stretch between the launches writes none of the buffers read later. -/
theorem W5_keep (b : Ref sig .tc) (hb : b = main_v1 ∨ b = main_v3 ∨ b = main_v28 ∨ b = main_arg4 ∨ b = main_arg5) :
    W5 m ρ c (Proc.devRef .tc b) = W4 m ρ c (Proc.devRef .tc b) := by
  show StableHlo.after hostOps1 (W4 m ρ c) (Proc.devRef .tc b) = _
  rcases hb with rfl | rfl | rfl | rfl | rfl <;> after_results_simp

/-! ## After the second launch -/

set_option maxHeartbeats 4000000 in
/-- The result: the neighbourhood sum of the second launch's output. -/
theorem W7_agg : W7 m ρ c (Proc.devRef .tc main_v56)
    = aggOf (W6 m ρ c (Proc.devRef .tc main_v3)) (W6 m ρ c (Proc.devRef .tc main_v1)) (W6 m ρ c (Proc.devRef .tc main_v28))
        (W6 m ρ c (Proc.devRef .tc main_v43)) := by
  show StableHlo.after hostOps2 (W6 m ρ c) (Proc.devRef .tc main_v56) = _
  after_results_simp <;> rfl

/-- A buffer neither launch stages and the middle stretch does not write holds at the end what it held before the first launch. -/
theorem W6_keep (b : Ref sig .tc) (hb : b = main_v1 ∨ b = main_v3 ∨ b = main_v28) :
    W6 m ρ c (Proc.devRef .tc b) = W3 m ρ c (Proc.devRef .tc b) := by
  have h5 := W5_keep m ρ c b (by rcases hb with h | h | h <;> simp [h])
  rcases hb with rfl | rfl | rfl
  · exact (W6_of_ne m ρ c main_v1 (by decide)).trans (h5.trans (W4_of_ne m ρ c main_v1 (by decide)))
  · exact (W6_of_ne m ρ c main_v3 (by decide)).trans (h5.trans (W4_of_ne m ρ c main_v3 (by decide)))
  · exact (W6_of_ne m ρ c main_v28 (by decide)).trans (h5.trans (W4_of_ne m ρ c main_v28 (by decide)))

end Host

/-! ## The launches' arrays, and the whole -/

variable (m : (ℓ : Loc nD τ sig) → Buf (Elt Ideal) ℓ) (ρ : Dev nD → PrngReg) (c : Dev nD)

/-- After the first launch its output array holds x·W1 + b1. -/
theorem W4_lin : W4 m ρ c (Proc.devRef .tc main_v29)
    = affine (A := 100000) (K := 64) (C := 64) (m ((c : Thread nD τ).loc main_arg0)) (m ((c : Thread nD τ).loc main_arg2)) (m ((c : Thread nD τ).loc main_arg3)) := by
  refine (W4_arr m ρ c 3).trans ((Region.final0 (V3 m ρ) c).trans ?_)
  show affine (W3 m ρ c (Proc.devRef .tc main_arg0)) (W3 m ρ c (Proc.devRef .tc main_arg2)) (W3 m ρ c (Proc.devRef .tc main_arg3)) = _
  rw [W3_arg0, W3_arg2, W3_arg3]

/-- After the second launch its output array holds max(a, 0)·W2 + b2 of its input array a. -/
theorem W6_lin : W6 m ρ c (Proc.devRef .tc main_v43)
    = affine (A := 100000) (K := 64) (C := 64) (reluArr (W5 m ρ c (Proc.devRef .tc main_v42))) (m ((c : Thread nD τ).loc main_arg4)) (m ((c : Thread nD τ).loc main_arg5)) := by
  refine (W6_arr m ρ c 3).trans ((Region.final1 (V5 m ρ) c).trans ?_)
  show affine (reluArr (W5 m ρ c (Proc.devRef .tc main_v42))) (W5 m ρ c (Proc.devRef .tc main_arg4)) (W5 m ρ c (Proc.devRef .tc main_arg5)) = _
  rw [W5_keep m ρ c main_arg4 (by simp), W5_keep m ρ c main_arg5 (by simp), W4_of_ne m ρ c main_arg4 (by decide),
    W4_of_ne m ρ c main_arg5 (by decide), W3_arg4, W3_arg5]

/-- The result buffer ends holding the network function of the arguments. -/
theorem result_eq : W7 m ρ c (Proc.devRef .tc main_v56)
    = gcn (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  rw [W7_agg, W6_lin, W5_agg, W4_lin,
    W6_keep m ρ c main_v1 (by simp), W6_keep m ρ c main_v3 (by simp), W6_keep m ρ c main_v28 (by simp),
    W4_of_ne m ρ c main_v1 (by decide), W4_of_ne m ρ c main_v3 (by decide), W4_of_ne m ρ c main_v28 (by decide),
    W3_row, W3_col, W3_nrm]
  rfl

end Cert.KernelIdeal.HostValue

end
-- ==== Proof.RefValue.lean ====
/-
  What the reference's run leaves in its result buffer, as the network function of the arguments.

  The reference's composed term is, operation for operation, the neighbourhood sum `Chain.agg` of a dense layer of the
  rectified neighbourhood sum of a dense layer (it recomputes the degree normalisation for its second layer from the same
  edge_index: the same term).  At the ideal values the host's dense layer (dot_general plus the bias through two
  broadcast_in_dim) is the affine map and `maximum` against a broadcast zero is the entrywise clamp, so the term is `Spec.gcn`.
-/
import proofs.«136392_j12206297055836_1_alg».proof.Proof.RefRun
import proofs.«136392_j12206297055836_1_alg».proof.Proof.Spec

set_option maxRecDepth 16384

noncomputable section

namespace Cert.ReferenceIdeal.RefValue

open Cert.ReferenceIdeal Cert.ReferenceIdeal.Gen Cert.ReferenceIdeal.ValueP Idealize.ShloMosaic Idealize.ShloMosaic.TcCoe Idealize.SL.Sem
open Cert.Chain Cert.Spec Cert.Lib.Dense Idealize.ShloMosaic.ValueIdx

section Host

variable {F : FTy → Type} [FloatOps F]

/-- The reference's dense layer as the host spells it. -/
def hostLin (x : (⟨S100000x64, .f32⟩ : BufTy).Contents (Elt F)) (w : (⟨S64x64, .f32⟩ : BufTy).Contents (Elt F))
    (b : (⟨S64, .f32⟩ : BufTy).Contents (Elt F)) : (⟨S100000x64, .f32⟩ : BufTy).Contents (Elt F) :=
  addf (Host.dotGeneral dot_S100000x64_S64x64_S100000x64_1_0_0_1_n_n none x w)
    (broadcastInDim S100000x64 ![0, 1] bcast_S1x64_S100000x64_0_1 (broadcastInDim S1x64 ![1] bcast_S64_S1x64_1 b))

/-- The reference's rectifier as the host spells it. -/
def hostRelu (a : (⟨S100000x64, .f32⟩ : BufTy).Contents (Elt F)) : (⟨S100000x64, .f32⟩ : BufTy).Contents (Elt F) :=
  maximumf a (broadcastInDim S100000x64 ![] bcast_S_S100000x64 (constant S_ .f32 0x00000000#32))

set_option maxHeartbeats 4000000 in
/-- The reference's composed term, folded: two layers over one host chain. -/
theorem res_chain (m : (ℓ : Loc nD τ sig) → Buf (Elt F) ℓ) (c : Dev nD) :
    res_main_v92 m c = agg (m ((c.tc : Thread nD τ).loc main_arg1))
      (hostLin (hostRelu (agg (m ((c.tc : Thread nD τ).loc main_arg1))
        (hostLin (m ((c.tc : Thread nD τ).loc main_arg0)) (m ((c.tc : Thread nD τ).loc main_arg2)) (m ((c.tc : Thread nD τ).loc main_arg3)))))
        (m ((c.tc : Thread nD τ).loc main_arg4)) (m ((c.tc : Thread nD τ).loc main_arg5))) := by
  unfold res_main_v92
  rfl

end Host

/-- At the ideal values the host's dense layer is the affine map. -/
theorem hostLin_eq (x : (⟨S100000x64, .f32⟩ : BufTy).Contents (Elt Ideal)) (w : (⟨S64x64, .f32⟩ : BufTy).Contents (Elt Ideal))
    (b : (⟨S64, .f32⟩ : BufTy).Contents (Elt Ideal)) :
    hostLin (F := Ideal) x w b = affine (A := 100000) (K := 64) (C := 64) x w b :=
  host_affine (A := 100000) (K := 64) (C := 64) x w b _ _ none

/-- At the ideal values the host's rectifier is the entrywise clamp at zero. -/
theorem hostRelu_eq (a : (⟨S100000x64, .f32⟩ : BufTy).Contents (Elt Ideal)) : hostRelu (F := Ideal) a = reluArr a := by
  funext i
  unfold hostRelu reluArr
  rw [maximumf_apply, broadcastInDim_apply (![] : Fin 0 → Fin 2) _ _ i ix0 (fun d => d.elim0)]
  rfl

/-- The reference's result is the network function of its arguments. -/
theorem res_eq (m : (ℓ : Loc nD τ sig) → Buf (Elt Ideal) ℓ) (c : Dev nD) :
    res_main_v92 (F := Ideal) m c
      = gcn (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  rw [res_chain, hostLin_eq, hostRelu_eq, hostLin_eq]
  rfl

end Cert.ReferenceIdeal.RefValue

end
-- ==== Proof.lean ====
/-
  A two-layer graph convolution: the kernel program against its jnp reference, equal over the extended reals.

  Both programs compute  out = agg(max(agg(x·W1 + b1), 0)·W2 + b2),  where agg(h)[v, :] = Σ_{e : col e = v} norm e · h[row e, :]
  is the degree-normalised neighbourhood sum over the edges (row, col) = edge_index (Proof/Chain.lean, Proof/Spec.lean).
  The kernel program computes each dense layer in a pipelined launch over ten blocks of 10000 rows — operands narrowed to
  bf16, a product on the matrix unit into a zero accumulator, the bias row broadcast down, the second launch clamping its
  input at zero first — and the neighbourhood sums with host gathers and scatter-adds; the reference computes the dense
  layers with one host product each and the same host chain.  At the ideal values a change of float format is the identity
  and both products are the plain sums Σ_k x[p, k]·w[k, q], so each launch's output array is the affine map of its whole input
  (Proof/Body.lean: a block's payload; Proof/Region.lean: the ten blocks tile the array), the buffers are followed through
  @main to the result (Proof/KValue.lean over the run of Proof/KRun.lean), and the reference's composed term folds to the
  same function (Proof/RefValue.lean over its run, Proof/RefRun.lean).  No law of arithmetic beyond reading both products
  as the same sum is used, so the precondition is not opened: the gathers and scatters are the same host operations on the
  same indices on both sides, whatever the indices are.  The word-level program's frame and the idealized one's are the
  generated frame certificates; the ideal pass rewrote nothing, so the idealization claim is trivial.
-/
import proofs.«136392_j12206297055836_1_alg».proof.Defs
import proofs.«136392_j12206297055836_1_alg».proof.Proof.Gen.Kernel
import proofs.«136392_j12206297055836_1_alg».proof.Proof.Gen.Kernel.Frame
import proofs.«136392_j12206297055836_1_alg».proof.Proof.Gen.KernelIdeal
import proofs.«136392_j12206297055836_1_alg».proof.Proof.Gen.KernelIdeal.Frame
import proofs.«136392_j12206297055836_1_alg».proof.Proof.Gen.ReferenceIdeal
import proofs.«136392_j12206297055836_1_alg».proof.Proof.Gen.Pre_finite_inputs
import proofs.«136392_j12206297055836_1_alg».proof.Proof.KValue
import proofs.«136392_j12206297055836_1_alg».proof.Proof.RefValue
import Idealize.ShloMosaic.Adequacy
import Idealize.ShloMosaic.Init

noncomputable section

namespace Cert.Proof

open Idealize.ShloMosaic Idealize.ShloMosaic.TcCoe Idealize.SL.Sem

/-- The word-level program runs and keeps its arguments. -/
theorem frame_k : Cert.frame_Kernel := fun m ρ _ => Cert.Kernel.Gen.frame m ρ

/-- So does the idealized program. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories agreeing on the arguments both programs end with the network function of the arguments in their result. -/
theorem algebraic : Cert.algebraic_KernelIdeal_ReferenceIdeal := by
  intro m ρ m' ρ' _ hagree
  refine ⟨fun c => Cert.Spec.gcn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.HostValue.result_eq m ρ c), (h c).2⟩)
      (Cert.KernelIdeal.GenRun.run_result (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.RefValue.res_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
